-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S1x512x512 : S_.BroadcastsInDim S1x512x512 (![] : Fin 0 → Fin S1x512x512.rank)
  reducesTo_S1x512x512_S_d0_1_2 : S1x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x4096x512 .f32) (main_arg1 : FVec F S8x512 .f32) (main_arg2 : FVec F S1x512x512 .f32) (main_arg3 : FVec F S512x512 .f32) (main_arg4 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1x512x512 .f32 := Host.absf main_arg2
  let main_cst_2 : FVec F S_ .f32 := constant S_ .f32 0x7F800000#32
  let main_v10 : FVec F S1x512x512 .f32 := broadcastInDim S1x512x512 ![] bcast_S_S1x512x512 main_cst_2
  let main_v11 : IVec S1x512x512 1 := cmpf .olt main_v9 main_v10
  let main_c_3 : IVec S_ 1 := constantI S_ 1 1#1
  let main_v12 : IVec S_ 1 := (fun x v => Host.reduce IntOp.andi x v reducesTo_S1x512x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S8x512x1 : Shape := ⟨3, ![8, 512, 1]⟩
abbrev S1x1024x512 : Shape := ⟨3, ![1, 1024, 512]⟩
abbrev S1x512x1 : Shape := ⟨3, ![1, 512, 1]⟩
abbrev S512x1 : Shape := ⟨2, ![512, 1]⟩
abbrev S1024x512 : Shape := ⟨2, ![1024, 512]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S8x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S8x512, .f32⟩
  | .hbm, ⟨7, _⟩ => ⟨S1x512, .f32⟩
  | .hbm, ⟨8, _⟩ => ⟨S8x512, .f32⟩
  | .hbm, ⟨9, _⟩ => ⟨S8x512, .f32⟩
  | .hbm, ⟨10, _⟩ => ⟨S8x512x1, .f32⟩
  | .hbm, ⟨11, _⟩ => ⟨S8x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x1, .f32⟩
  | .local _ .vmem, ⟨4, _⟩ => ⟨S1x512x1, .f32⟩
  | .local _ .vmem, ⟨5, _⟩ => ⟨S1x1024x512, .f32⟩
  | .local _ .vmem, ⟨6, _⟩ => ⟨S1x1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1_0_1 : S8x512.BroadcastsInDim S8x512x1 (![0, 1] : Fin 2 → Fin S8x512x1.rank)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S512x1_S512x512 : S512x1.Broadcasts S512x512
  reduces_S512x512_S512 : S512x512.Reduces [0] S512
  shapeCasts_S512_S1x512 : S512.ShapeCasts S1x512
  broadcasts_S1x512_S512x512 : S1x512.Broadcasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  shapeCasts_S1024x512_S1x1024x512 : S1024x512.ShapeCasts S1x1024x512
  dot_S8x512_S512x512_S8x512_1_0_0_1_n_n_wf : DotDims.WF S8x512 S512x512 S8x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S1x512x512.size a
  hwx0_1 : ∀ i : grid0.Coords, EltTy.bits .f32 = 32 ∨ (Rect.block (s := S1x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x4096x512.size a
  hwx0_3 : ∀ i : grid0.Coords, EltTy.bits .f32 = 32 ∨ (Rect.block (s := S8x4096x512) S1x1024x512.size (cc0_transform_3 i) (hinb0_3 i)).WholeWords (EltTy.packing .f32)

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S8x512x1 : Shape := ⟨3, ![8, 512, 1]⟩
abbrev S_ : Shape := ⟨0, ![]⟩
abbrev S8x512x512 : Shape := ⟨3, ![8, 512, 512]⟩
abbrev S8x1x512 : Shape := ⟨3, ![8, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S8x512, .f32⟩
  | .hbm, ⟨7, _⟩ => ⟨S1x512, .f32⟩
  | .hbm, ⟨8, _⟩ => ⟨S8x512, .f32⟩
  | .hbm, ⟨9, _⟩ => ⟨S8x512, .f32⟩
  | .hbm, ⟨10, _⟩ => ⟨S8x512x1, .f32⟩
  | .hbm, ⟨11, _⟩ => ⟨S_, .f32⟩
  | .hbm, ⟨12, _⟩ => ⟨S8x512x1, .f32⟩
  | .hbm, ⟨13, _⟩ => ⟨S8x512x1, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S8x512x512, .f32⟩
  | .hbm, ⟨18, _⟩ => ⟨S_, .f32⟩
  | .hbm, ⟨19, _⟩ => ⟨S8x512, .f32⟩
  | .hbm, ⟨20, _⟩ => ⟨S_, .f32⟩
  | .hbm, ⟨21, _⟩ => ⟨S8x512, .f32⟩
  | .hbm, ⟨22, _⟩ => ⟨S8x512, .f32⟩
  | .hbm, ⟨23, _⟩ => ⟨S8x512, .f32⟩
  | .hbm, ⟨24, _⟩ => ⟨S8x1x512, .f32⟩
  | .hbm, ⟨25, _⟩ => ⟨S8x512x512, .f32⟩
  | .hbm, ⟨26, _⟩ => ⟨S8x512x512, .f32⟩
  | .hbm, ⟨27, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  bcast_S1x512x512_S8x512x512_0_1_2 : S1x512x512.BroadcastsInDim S8x512x512 (![0, 1, 2] : Fin 3 → Fin S8x512x512.rank)
  bcast_S8x512x1_S8x512x512_0_1_2 : S8x512x1.BroadcastsInDim S8x512x512 (![0, 1, 2] : Fin 3 → Fin S8x512x512.rank)
  reducesTo_S8x512x512_S8x512_d1 : S8x512x512.ReducesTo [1] S8x512
  h_S_ : 0 < S_.numel
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  dot_S8x512_S512x512_S8x512_1_0_0_1_n_n_wf : DotDims.WF S8x512 S512x512 S8x512 [1] [0] [0] [1] [] []
  dot_S8x4096x512_S8x512x512_S8x4096x512_2_1_1_2_0_0_wf : DotDims.WF S8x4096x512 S8x512x512 S8x4096x512 [2] [1] [1] [2] [0] [0]

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf

class Facts : Prop extends Facts₀ where

variable [Facts]
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.LibColumnSum.lean ====
/-
  A reduction over the FIRST axis, and a reciprocal root, read at an index written with `ValueIdx.ix1` / `ix2`, for any
  extents `a`, `b`:

  • `multiReduction_add_cols`: at the ideal values the sum of an `[a, b]` vector over its first axis, read at column `q`,
    is `∑ k : Fin a, v (k, q)` (the accumulator is the neutral zero, which the sum drops) — the companion, for
    `jnp.sum(x, axis=0)`, of the row form over the second axis;
  • `rsqrt_apply`: a vector's reciprocal root at an index is the extended reals' reciprocal root of the entry.

  With the library's row forms (`shapeCast_a_1a_apply`, `broadcastTo_1b_ab_apply`) these read a kernel's
  `x · rsqrt(∑ x², axis=0, keepdims) + ε)` at `(p, q)` as a function of column `q` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

/-- At the ideal values a reduction of an `[a, b]` vector over its FIRST axis, read at column `q`, is the sum of the
    column (the accumulator is the neutral zero, which the sum drops). -/
theorem multiReduction_add_cols {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun ax => Fin.ext (by
      match ax with
      | ⟨0, _⟩ => rfl
      | ⟨1, _⟩ => rfl)))

/-- The reciprocal root of a vector, read at an index, is the extended reals' reciprocal root of the entry. -/
theorem rsqrt_apply {s : Shape} {φ : FTy} (a : FVec Ideal s φ) (i : s.Idx) : rsqrt a i = Ideal.rsqrt (a i) := rfl

end Idealize.ShloMosaic.ValueIdx
-- ==== Proof.Spec.lean ====
/-
  The function both programs compute, written once over the argument arrays, index by index on the extended reals.

  With `s` the per-sample style vector as a column array `[8, 512, 1]`, `w` the base weight `[1, 512, 512]` and `x` the
  activations `[8, 4096, 512]`:

    modulated weight   W b k o = w(0, k, o) · (s(b, k, 0) + 1)
    demodulation       D b o   = rsqrt (Σ_k W b k o · W b k o + ε)
    result             G (b, n, o) = Σ_k x(b, n, k) · (W b k o · D b o)

  The sum of squares runs over the INPUT-channel axis `k` (the rows of the weight), so one demodulation factor serves a
  whole output column `o` of sample `b`. Both literals (`1` and `ε`) are kept as their binary words: the same word
  stands on both sides and is never evaluated.
-/
import Idealize.ShloMosaic.Lib.Pipeline.Value
import Idealize.ShloMosaic.Lib.ValueIdx
import Idealize.ShloMosaic.Lib.ValueLayout
import Idealize.ShloMosaic.PureOps.Ideal.Laws
import proofs.«137280_j249108103688_1_alg».proof.Proof.LibKeepdims
import proofs.«137280_j249108103688_1_alg».proof.Proof.LibColumnSum

open scoped BigOperators

noncomputable section

namespace Cert.StyleMod

open Idealize.ShloMosaic Idealize.ShloMosaic.ValueIdx

/-- The word of `1.0`. -/
abbrev one : EReal := Ideal.ofBits .f32 0x3F800000#32
/-- The word of the demodulation's `ε`. -/
abbrev eps : EReal := Ideal.ofBits .f32 0x322BCC77#32

/-- The modulated weight of sample `b`: the base weight's entry `(k, o)` scaled by `s(b, k) + 1`. -/
def wmod (w : (⟨3, ![1, 512, 512]⟩ : Shape).Idx → EReal) (s : (⟨3, ![8, 512, 1]⟩ : Shape).Idx → EReal)
    (b : Fin 8) (k o : Fin 512) : EReal :=
  w (ix3 (0 : Fin 1) k o) * (s (ix3 b k (0 : Fin 1)) + one)

/-- The demodulation factor of sample `b` and output column `o`: the reciprocal root of the column's sum of squares
    plus `ε`. -/
def demod (w : (⟨3, ![1, 512, 512]⟩ : Shape).Idx → EReal) (s : (⟨3, ![8, 512, 1]⟩ : Shape).Idx → EReal)
    (b : Fin 8) (o : Fin 512) : EReal :=
  Ideal.rsqrt ((∑ k : Fin 512, wmod w s b k o * wmod w s b k o) + eps)

/-- The result: row `n` of sample `b` against the demodulated, modulated weight of that sample. -/
def G (x : (⟨3, ![8, 4096, 512]⟩ : Shape).Idx → EReal) (w : (⟨3, ![1, 512, 512]⟩ : Shape).Idx → EReal)
    (s : (⟨3, ![8, 512, 1]⟩ : Shape).Idx → EReal) : (⟨3, ![8, 4096, 512]⟩ : Shape).Idx → EReal :=
  fun i => ∑ k : Fin 512, x (ix3 (i 0) (i 1) k) * (wmod w s (i 0) k (i 2) * demod w s (i 0) (i 2))

end Cert.StyleMod

end
-- ==== Proof.Body.lean ====
/-
  The kernel body's one stored value, read at an index, over ANY three loaded blocks: the style column block `v0`
  `[1, 512, 1]`, the weight block `v2` `[1, 512, 512]` and the activation tile `v16` `[1, 1024, 512]`.

  The body modulates the weight block row by row (row `k` scaled by `v0(0, k, 0) + 1`), sums the squares of each COLUMN
  (a reduction over the first axis), adds `ε`, takes the reciprocal root, scales every column by its factor, and multiplies
  the tile by the result into a zero accumulator; the narrowing of both operands to bf16 is the identity on the
  extended reals. So entry `(0, r, o)` of the stored value is
    Σ_k v16(0, r, k) · (W k o · rsqrt (Σ_k' W k' o · W k' o + ε)),   W k o = v2(0, k, o) · (v0(0, k, 0) + 1).
-/
import proofs.«137280_j249108103688_1_alg».proof.Proof.Gen.KernelIdeal.Skeleton
import proofs.«137280_j249108103688_1_alg».proof.Proof.Spec

open scoped BigOperators

noncomputable section

namespace Cert.StyleMod.Body

open Cert.KernelIdeal Cert.KernelIdeal.Gen
open Idealize.ShloMosaic Idealize.ShloMosaic.TcCoe Idealize.ShloMosaic.ValueIdx Cert.StyleMod

/-! ## The modulated weight of a block -/

/-- The weight block with row `k` scaled by the style column's entry plus one, as the body computes it. -/
def wblk (v0 : Vec Ideal S1x512x1 .f32) (v2 : Vec Ideal S1x512x512 .f32) : FVec Ideal S512x512 .f32 :=
  mulf (shapeCast S512x512 v2 shapeCasts_S1x512x512_S512x512)
    (broadcastTo S512x512 (addf (shapeCast S512x1 v0 shapeCasts_S1x512x1_S512x1)
      (broadcast S512x1 (Scalar.ofBits (F := Ideal) .f32 0x3F800000#32))) broadcasts_S512x1_S512x512)

/-- Its entry `(k, o)`. -/
theorem wblk_apply (v0 : Vec Ideal S1x512x1 .f32) (v2 : Vec Ideal S1x512x512 .f32) (k o : Fin 512) :
    wblk v0 v2 (ix2 k o) = v2 (ix3 (0 : Fin 1) k o) * (v0 (ix3 (0 : Fin 1) k (0 : Fin 1)) + one) := by
  unfold wblk
  rw [mulf_apply, shapeCast_1ab_ab_apply, broadcastTo_a1_ab_apply, addf_apply, shapeCast_1ab_ab_apply, broadcast_apply]
  rfl

/-! ## The demodulation row -/

/-- The reciprocal root of each column's sum of squares plus `ε`, as a row `[1, 512]`, read at column `o`. -/
theorem demod_row_apply (wv : FVec Ideal S512x512 .f32) (u : Fin 1) (o : Fin 512) :
    rsqrt (addf (shapeCast S1x512 (multiReduction .add [0] S512 (mulf wv wv) 0x00000000#32 reduces_S512x512_S512 (.inl rfl) rfl)
        shapeCasts_S512_S1x512) (broadcast S1x512 (Scalar.ofBits (F := Ideal) .f32 0x322BCC77#32))) (ix2 u o)
      = Ideal.rsqrt ((∑ k : Fin 512, wv (ix2 k o) * wv (ix2 k o)) + eps) := by
  have hs := multiReduction_add_cols (mulf wv wv) 0x00000000#32 reduces_S512x512_S512 (.inl rfl) rfl o
  rw [rsqrt_apply, addf_apply, shapeCast_a_1a_apply, broadcast_apply, hs]
  rfl

/-! ## The product into a zero accumulator, as a sum -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The tile times a `[512, 512]` matrix into the zero accumulator, at `(r, o)`: row `r` against column `o`. -/
theorem tile_product_apply (l : FVec Ideal S1024x512 .bf16) (rr : FVec Ideal S512x512 .bf16) (r : Fin 1024) (o : Fin 512) :
    matmul dot_S1024x512_S512x512_S1024x512_1_0_0_1_n_n none l rr (constant (F := Ideal) S1024x512 .f32 0x00000000#32) (ix2 r o)
      = ∑ k : Fin 512, l (ix2 r k) * rr (ix2 k o) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r o) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r o) ((ValueIdx.contrEquiv1 dot_S1024x512_S512x512_S1024x512_1_0_0_1_n_n 512 rfl rfl).symm k) = ix2 k o := funext fun a => Fin.ext (by
    match a with
    | ⟨0, _⟩ => exact (rhs_mm_0 _ _).trans hk
    | ⟨1, _⟩ => exact rhs_mm_1 _ _)
  rw [el, er]

/-! ## The stored value -/

/-- The body's stored value in terms of the modulated block. -/
theorem pay_eq (v0 : Vec Ideal S1x512x1 .f32) (v2 : Vec Ideal S1x512x512 .f32) (v16 : Vec Ideal S1x1024x512 .f32) :
    k0_pay1 (F := Ideal) v0 v2 v16
      = shapeCast S1x1024x512
          (matmul dot_S1024x512_S512x512_S1024x512_1_0_0_1_n_n none
            (truncf .bf16 (shapeCast S1024x512 v16 shapeCasts_S1x1024x512_S1024x512) bitsLt_bf16_f32)
            (truncf .bf16 (mulf (wblk v0 v2) (broadcastTo S512x512
              (rsqrt (addf (shapeCast S1x512 (multiReduction .add [0] S512 (mulf (wblk v0 v2) (wblk v0 v2)) 0x00000000#32 reduces_S512x512_S512 (.inl rfl) rfl)
                shapeCasts_S512_S1x512) (broadcast S1x512 (Scalar.ofBits (F := Ideal) .f32 0x322BCC77#32))))
              broadcasts_S1x512_S512x512)) bitsLt_bf16_f32)
            (constant (F := Ideal) S1024x512 .f32 0x00000000#32))
          shapeCasts_S1024x512_S1x1024x512 := rfl

/-- Entry `(u, r, o)` of the stored value: row `r` of the tile against column `o` of the demodulated, modulated weight. -/
theorem pay_apply (v0 : Vec Ideal S1x512x1 .f32) (v2 : Vec Ideal S1x512x512 .f32) (v16 : Vec Ideal S1x1024x512 .f32)
    (u : Fin 1) (r : Fin 1024) (o : Fin 512) :
    k0_pay1 (F := Ideal) v0 v2 v16 (ix3 u r o)
      = ∑ k : Fin 512, v16 (ix3 (0 : Fin 1) r k) *
          ((v2 (ix3 (0 : Fin 1) k o) * (v0 (ix3 (0 : Fin 1) k (0 : Fin 1)) + one)) *
            Ideal.rsqrt ((∑ k' : Fin 512, (v2 (ix3 (0 : Fin 1) k' o) * (v0 (ix3 (0 : Fin 1) k' (0 : Fin 1)) + one)) *
              (v2 (ix3 (0 : Fin 1) k' o) * (v0 (ix3 (0 : Fin 1) k' (0 : Fin 1)) + one))) + eps)) := by
  rw [pay_eq, shapeCast_ab_1ab_apply, tile_product_apply]
  refine Finset.sum_congr rfl fun k _ => ?_
  rw [truncf_apply, truncf_apply, shapeCast_1ab_ab_apply, mulf_apply, broadcastTo_1b_ab_apply, demod_row_apply]
  simp only [wblk_apply]

end Cert.StyleMod.Body

end
-- ==== Proof.KernValue.lean ====
/-
  From blocks to the array: after the kernel's run the result array is the specification's `G` of the three arrays the
  region stages — the activations, the base weight and the style column.

  Grid point `t = (b, j)` stages rows `1024·j … 1024·j + 1023` of sample `b` of the activations, the whole base weight,
  and sample `b`'s style column, and writes back rows `1024·j …` of sample `b` of the result. The demodulated weight the
  body computes depends on the sample only, so the tile's entry `(0, r, o)` is `G` at `(b, 1024·j + r, o)`; the 32 blocks
  tile the result array, so the array ends at `G` everywhere.
-/
import proofs.«137280_j249108103688_1_alg».proof.Proof.Gen.KernelIdeal.Value
import proofs.«137280_j249108103688_1_alg».proof.Proof.Body
import Idealize.ShloMosaic.Lib.Pipeline.Value

open scoped BigOperators

noncomputable section

namespace Cert.StyleMod.Kern

open Cert.KernelIdeal Cert.KernelIdeal.Gen Cert.KernelIdeal.Value
open Idealize.ShloMosaic Idealize.ShloMosaic.TcCoe Idealize.ShloMosaic.ValueIdx Idealize.SL.Sem Cert.StyleMod Cert.StyleMod.Body
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: the activations' window moves with the result's; the weight's block is always
    the first; the style column's follows the sample; the result's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = 0 ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 3 :=
  (by decide +kernel : ∀ t : Fin grid0.N, _)

/-- Every block of the result array is SOME point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## The input blocks, read at an index -/

/-- The activations' block at point `t`: entry `y` is the array's entry at the block's offset plus `y`. -/
theorem xblk_apply (c : Dev nD) (t : Fin cfg0.N) (y : S1x1024x512.Idx) (i : S8x4096x512.Idx)
    (h0 : (i 0).val = win0_0.index t (0 : Fin 3) * 1 + (y 0).val) (h1 : (i 1).val = win0_0.index t (1 : Fin 3) * 1024 + (y 1).val)
    (h2 : (i 2).val = win0_0.index t (2 : Fin 3) * 512 + (y 2).val) :
    (iblk m c 0 t : Vec Ideal S1x1024x512 .f32) y = (V m c main_arg0 : S8x4096x512.Idx → EReal) i := by
  unfold iblk
  rw [View.read_apply]
  show V m c main_arg0 _ = V m c main_arg0 _
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 512 + 1 * (y 2).val = (i 2).val; omega

/-- The weight's block at point `t`. -/
theorem wblk_read (c : Dev nD) (t : Fin cfg0.N) (y : S1x512x512.Idx) (i : S1x512x512.Idx)
    (h0 : (i 0).val = win0_1.index t (0 : Fin 3) * 1 + (y 0).val) (h1 : (i 1).val = win0_1.index t (1 : Fin 3) * 512 + (y 1).val)
    (h2 : (i 2).val = win0_1.index t (2 : Fin 3) * 512 + (y 2).val) :
    (iblk m c 1 t : Vec Ideal S1x512x512 .f32) y = (V m c main_arg2 : S1x512x512.Idx → EReal) i := by
  unfold iblk
  rw [View.read_apply]
  show V m c main_arg2 _ = V m c main_arg2 _
  congr 1
  funext a
  apply Fin.ext
  match a with
  | ⟨0, _⟩ => show win0_1.index t (0 : Fin 3) * 1 + 1 * (y 0).val = (i 0).val; omega
  | ⟨1, _⟩ => show win0_1.index t (1 : Fin 3) * 512 + 1 * (y 1).val = (i 1).val; omega
  | ⟨2, _⟩ => show win0_1.index t (2 : Fin 3) * 512 + 1 * (y 2).val = (i 2).val; omega

/-- The style column's block at point `t`. -/
theorem sblk_read (c : Dev nD) (t : Fin cfg0.N) (y : S1x512x1.Idx) (i : S8x512x1.Idx)
    (h0 : (i 0).val = win0_2.index t (0 : Fin 3) * 1 + (y 0).val) (h1 : (i 1).val = win0_2.index t (1 : Fin 3) * 512 + (y 1).val)
    (h2 : (i 2).val = win0_2.index t (2 : Fin 3) * 1 + (y 2).val) :
    (iblk m c 2 t : Vec Ideal S1x512x1 .f32) y = (V m c main_v5 : S8x512x1.Idx → EReal) i := by
  unfold iblk
  rw [View.read_apply]
  show V m c main_v5 _ = V m c main_v5 _
  congr 1
  funext a
  apply Fin.ext
  match a with
  | ⟨0, _⟩ => show win0_2.index t (0 : Fin 3) * 1 + 1 * (y 0).val = (i 0).val; omega
  | ⟨1, _⟩ => show win0_2.index t (1 : Fin 3) * 512 + 1 * (y 1).val = (i 1).val; omega
  | ⟨2, _⟩ => show win0_2.index t (2 : Fin 3) * 1 + 1 * (y 2).val = (i 2).val; omega

/-! ## One point -/

/-- Over ANY blocks that are the arrays read where the point's rectangles say: the body's stored value at tile entry
    `(u, r, o)` is `G` at the array entry `(b, n, o)` it lands on. -/
theorem point_eq (X : S8x4096x512.Idx → EReal) (W : S1x512x512.Idx → EReal) (Sc : S8x512x1.Idx → EReal)
    (x0 : Vec Ideal S1x1024x512 .f32) (x1 : Vec Ideal S1x512x512 .f32) (x2 : Vec Ideal S1x512x1 .f32)
    (u : Fin 1) (r : Fin 1024) (o : Fin 512) (b : Fin 8) (n : Fin 4096)
    (h0 : ∀ k : Fin 512, x0 (ix3 (0 : Fin 1) r k) = X (ix3 b n k))
    (h1 : ∀ k o' : Fin 512, x1 (ix3 (0 : Fin 1) k o') = W (ix3 (0 : Fin 1) k o'))
    (h2 : ∀ k : Fin 512, x2 (ix3 (0 : Fin 1) k (0 : Fin 1)) = Sc (ix3 b k (0 : Fin 1))) :
    k0_pay1 (F := Ideal) x2 x1 x0 (ix3 u r o) = G X W Sc (ix3 b n o) := by
  rw [pay_apply]
  unfold G wmod demod
  simp only [h0, h1, h2]
  rfl

/-! ## What a point writes back, the cover, the array -/

/-- WHAT POINT `t` WRITES BACK is block `t` of `G` of the arrays as the region finds them. -/
theorem flushed_eq (c : Dev nD) (t : Fin cfg0.N) :
    (dats m 0 c).flushed 3 t = ((cfg0.win 3).blk t).view.read (Elt Ideal)
      (G (V m c main_arg0) (V m c main_arg2) (V m c main_v5)) := by
  rw [Value.flushed3]
  unfold out0_3
  rw [View.canon_unit_zero hz]
  simp only [View.ld_unit_zero (S := S1x512x1) hz, View.ld_unit_zero (S := S1x512x512) hz, View.ld_unit_zero (S := S1x1024x512) hz]
  obtain ⟨e00, e01, e02, e32, e10, e11, e12, e20, e21, e22, b0, b1⟩ := idx_facts t
  funext j
  obtain ⟨u, r, o, rfl⟩ : ∃ (u : Fin 1) (r : Fin 1024) (o : Fin 512), j = ix3 u r o := ⟨j 0, j 1, j 2, eq_ix3 j⟩
  have hu : u.val = 0 := by omega
  have hr : r.val < 1024 := r.isLt
  -- the array entry the tile entry lands on: sample `b`, row `1024·(block row) + r`, column `o`
  have hemb : ((cfg0.win 3).blk t).view.emb (ix3 u r o)
      = ix3 (⟨win0_3.index t (0 : Fin 3), by omega⟩ : Fin 8) (⟨win0_3.index t (1 : Fin 3) * 1024 + r.val, by omega⟩ : Fin 4096) o :=
    funext fun a => Fin.ext (by
      match a with
      | ⟨0, _⟩ => show win0_3.index t (0 : Fin 3) * 1 + 1 * u.val = win0_3.index t (0 : Fin 3); omega
      | ⟨1, _⟩ => show win0_3.index t (1 : Fin 3) * 1024 + 1 * r.val = win0_3.index t (1 : Fin 3) * 1024 + r.val; omega
      | ⟨2, _⟩ => show win0_3.index t (2 : Fin 3) * 512 + 1 * o.val = o.val; omega)
  rw [View.read_apply, hemb]
  show k0_pay1 (F := Ideal) (iblk m c 2 t) (iblk m c 1 t) (iblk m c 0 t) (ix3 u r o) = _
  refine point_eq (V m c main_arg0) (V m c main_arg2) (V m c main_v5) (iblk m c 0 t) (iblk m c 1 t) (iblk m c 2 t)
    u r o _ _ (fun k => ?_) (fun k o' => ?_) (fun k => ?_)
  · refine xblk_apply m c t _ _ ?_ ?_ ?_
    · show win0_3.index t (0 : Fin 3) = win0_0.index t (0 : Fin 3) * 1 + 0; omega
    · show win0_3.index t (1 : Fin 3) * 1024 + r.val = win0_0.index t (1 : Fin 3) * 1024 + r.val; omega
    · show k.val = win0_0.index t (2 : Fin 3) * 512 + k.val; omega
  · refine wblk_read m c t _ _ ?_ ?_ ?_
    · show 0 = win0_1.index t (0 : Fin 3) * 1 + 0; omega
    · show k.val = win0_1.index t (1 : Fin 3) * 512 + k.val; omega
    · show o'.val = win0_1.index t (2 : Fin 3) * 512 + o'.val; omega
  · refine sblk_read m c t _ _ ?_ ?_ ?_
    · show win0_3.index t (0 : Fin 3) = win0_2.index t (0 : Fin 3) * 1 + 0; omega
    · show k.val = win0_2.index t (1 : Fin 3) * 512 + k.val; omega
    · show 0 = win0_2.index t (2 : Fin 3) * 1 + 0; omega

/-- An index of the result array is in point `t`'s block iff each coordinate is in the block's range on its axis. -/
theorem mem_blk (t : Fin cfg0.N) (i : S8x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v6).slice (win0_3.rect t)).set ↔ _
  rw [View.set_slice_whole, Rect.mem_set_unit]
  exact Iff.rfl

/-- The blocks tile the result array: the point covering `(b, n, o)` is the one with block index `(b, n / 1024, 0)`. -/
theorem cover (i : S8x4096x512.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- THE ARRAY after the run: `G` of the arrays as the region finds them. -/
theorem final (c : Dev nD) :
    (dats m 0 c).arrAt 3 cfg0.N = G (V m c main_arg0) (V m c main_arg2) (V m c main_v5) :=
  (dats m 0 c).arrAt_eq_of_cover 3 (G (V m c main_arg0) (V m c main_arg2) (V m c main_v5))
    (fun t _ => flushed_eq m c t) cover

end Cert.StyleMod.Kern

end
-- ==== Proof.RefValue.lean ====
/-
  The reference's result, stage by stage, is the specification's `G` of the activations, the base weight and the style
  column `s` (the reference's own sixth value, kept whole: the kernel stages the very same array).

  Three readings: the reference's modulated weight `w · (s + 1)` at `(b, k, o)` is `wmod`; its demodulation
  `rsqrt (0 + Σ_k (…)² + ε)`, broadcast back over the input-channel axis, is `demod` at `(b, o)` wherever it is read; and
  the batched contraction over the input-channel axis is the sum in `G`.
-/
import proofs.«137280_j249108103688_1_alg».proof.Proof.Gen.ReferenceIdeal.Read
import proofs.«137280_j249108103688_1_alg».proof.Proof.Spec

open scoped BigOperators

noncomputable section

namespace Cert.StyleMod.Ref

open Cert.ReferenceIdeal Cert.ReferenceIdeal.Gen Cert.ReferenceIdeal.Read
open Idealize.ShloMosaic Idealize.ShloMosaic.TcCoe Idealize.ShloMosaic.ValueIdx Cert.StyleMod

variable (x1 : (⟨S8x512, .f32⟩ : BufTy).Contents (Elt Ideal)) (x2 : (⟨S1x512x512, .f32⟩ : BufTy).Contents (Elt Ideal))
  (x3 : (⟨S512x512, .f32⟩ : BufTy).Contents (Elt Ideal)) (x4 : (⟨S512, .f32⟩ : BufTy).Contents (Elt Ideal))

/-- The reference's modulated weight at `(b, k, o)`: the base weight's `(0, k, o)` times the style column's `(b, k, 0)`
    plus one. -/
theorem modulated_apply (b : Fin 8) (k o : Fin 512) :
    val_main_v10 (F := Ideal) x1 x2 x3 x4 (ix3 b k o) = wmod x2 (val_main_v5 (F := Ideal) x1 x3 x4) b k o := by
  have e8 : idx_main_v8 (ix3 b k o) = ix3 (0 : Fin 1) k o :=
    funext fun a => Fin.ext (by match a with | ⟨0, _⟩ => rfl | ⟨1, _⟩ => rfl | ⟨2, _⟩ => rfl)
  have e9 : idx_main_v9 (ix3 b k o) = ix3 b k (0 : Fin 1) :=
    funext fun a => Fin.ext (by match a with | ⟨0, _⟩ => rfl | ⟨1, _⟩ => rfl | ⟨2, _⟩ => rfl)
  rw [val_main_v10_apply, val_main_v8_apply, val_main_v9_apply, val_main_v7_apply, val_main_v6_apply,
    val_main_cst_apply, e8, e9]
  rfl

/-- The reference's demodulation, broadcast over the input-channel axis, read anywhere in column `o` of sample `b`. -/
theorem demod_apply (b : Fin 8) (k o : Fin 512) :
    val_main_v17 (F := Ideal) x1 x2 x3 x4 (ix3 b k o) = demod x2 (val_main_v5 (F := Ideal) x1 x3 x4) b o := by
  have e : idx_main_v16 (idx_main_v17 (ix3 b k o)) = ix2 b o :=
    funext fun a => Fin.ext (by match a with | ⟨0, _⟩ => rfl | ⟨1, _⟩ => rfl)
  have e12 : ∀ k' : Fin 512, idx_main_v12 (ix2 b o) k' = ix3 b k' o := fun k' =>
    funext fun a => Fin.ext (by match a with | ⟨0, _⟩ => rfl | ⟨1, _⟩ => rfl | ⟨2, _⟩ => rfl)
  rw [val_main_v17_apply, val_main_v16_apply, e, val_main_v15_apply, val_main_v14_apply, val_main_v12_apply,
    val_main_v13_apply, val_main_cst_1_apply, val_main_cst_0_apply]
  simp only [e12, val_main_v11_apply, modulated_apply]
  show Ideal.rsqrt ((Ideal.ofBits .f32 0x00000000#32 + _) + _) = _
  rw [Ideal.ofBits_zero_f32, zero_add]
  rfl

/-- The reference's result is `G` of the activations, the base weight and the style column. -/
theorem result_eq (x0 : (⟨S8x4096x512, .f32⟩ : BufTy).Contents (Elt Ideal)) :
    val_main_v19 (F := Ideal) x0 x1 x2 x3 x4 = G x0 x2 (val_main_v5 (F := Ideal) x1 x3 x4) := by
  funext i
  obtain ⟨b, n, o, rfl⟩ : ∃ (b : Fin 8) (n : Fin 4096) (o : Fin 512), i = ix3 b n o := ⟨i 0, i 1, i 2, eq_ix3 i⟩
  rw [val_main_v19_apply]
  refine Finset.sum_congr rfl fun k _ => ?_
  have hl : lidx_main_v19 (ix3 b n o) k = ix3 b n k :=
    funext fun a => Fin.ext (by match a with | ⟨0, _⟩ => rfl | ⟨1, _⟩ => rfl | ⟨2, _⟩ => rfl)
  have hr : ridx_main_v19 (ix3 b n o) k = ix3 b k o :=
    funext fun a => Fin.ext (by match a with | ⟨0, _⟩ => rfl | ⟨1, _⟩ => rfl | ⟨2, _⟩ => rfl)
  rw [hl, hr, val_main_v18_apply, modulated_apply, demod_apply]
  rfl

end Cert.StyleMod.Ref

end
-- ==== Proof.StyleColumn.lean ====
/-
  The style column the kernel's region stages is the reference's own: both programs begin with the same six host
  operations — the transposed modulation matrix, `style · mod_wᵀ`, the bias broadcast and added, and the result laid out
  as a column `[8, 512, 1]` — so the array the third window reads is, term for term, the reference's sixth value of the
  same three arguments.
-/
import proofs.«137280_j249108103688_1_alg».proof.Proof.Gen.KernelIdeal.Frame
import proofs.«137280_j249108103688_1_alg».proof.Proof.Gen.ReferenceIdeal.Read
import Idealize.ShloMosaic.Lib.StableHlo.Run

noncomputable section

namespace Cert.StyleMod.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The array the region finds in the style column's buffer, as the reference's sixth stage of the arguments. -/
theorem V_style (c : Dev nD) :
    (V m c main_v5 : S8x512x1.Idx → EReal)
      = Cert.ReferenceIdeal.Read.val_main_v5 (F := Ideal) (m ((c : Thread nD τ).loc main_arg1))
          (m ((c : Thread nD τ).loc main_arg3)) (m ((c : Thread nD τ).loc main_arg4)) := by
  dsimp only [Gen.V, Gen.hostOps0]
  after_results
  rfl

end Cert.StyleMod.Host

end
-- ==== Proof.Claims.lean ====
/-
  The five conjuncts.

  The three frames: the kernel's two are the generated frame runs; the reference has no kernel, and its frame is its
  generated run with the result dropped. The idealization rewrote nothing, so `preserves` is trivial.

  `algebraic`: from memories that agree on the five arguments both runs end, on every device, with the result array at
  ONE function of the kernel's arguments — the specification's `G` of the activations, the base weight, and the style
  column `style · mod_wᵀ + mod_b` (the reference's sixth value). On the kernel's side the array is `G` of the arrays
  the region stages (the blocks tile it), the two staged arguments are as launched and the staged style column is that
  sixth value; on the reference's side the last stage is `G` of the same, read stage by stage. No law of the extended reals
  beyond reading sums index by index is used, so the finiteness of the inputs is never opened.
-/
import proofs.«137280_j249108103688_1_alg».proof.Defs
import proofs.«137280_j249108103688_1_alg».proof.Proof.Gen.Kernel.Frame
import proofs.«137280_j249108103688_1_alg».proof.Proof.Gen.KernelIdeal.Value
import proofs.«137280_j249108103688_1_alg».proof.Proof.Gen.ReferenceIdeal.Run
import proofs.«137280_j249108103688_1_alg».proof.Proof.Gen.ReferenceIdeal.Read
import proofs.«137280_j249108103688_1_alg».proof.Proof.Gen.Pre_finite_inputs
import proofs.«137280_j249108103688_1_alg».proof.Proof.KernValue
import proofs.«137280_j249108103688_1_alg».proof.Proof.RefValue
import proofs.«137280_j249108103688_1_alg».proof.Proof.StyleColumn

noncomputable section

open Idealize.ShloMosaic Idealize.ShloMosaic.TcCoe Idealize.SL.Sem

namespace Cert.StyleMod.Kern

open Cert.KernelIdeal Cert.KernelIdeal.Gen Cert.KernelIdeal.Value Cert.StyleMod

variable (m : (ℓ : Loc nD τ sig) → Buf (Elt Ideal) ℓ) (ρ : Dev nD → PrngReg)

/-- The kernel's run, read: the result array at `G` of the launched activations and base weight and of the reference's
    style column of the launched `style`, `mod_w` and `mod_b`; the arguments unchanged. -/
theorem run : θ_run defs (onTc (τ := τ) (main (F := Ideal))) ⟨m, fun _ => 0, ρ⟩ fun r => ∀ c : Dev nD,
      r.2.mem ((c : Thread nD τ).loc main_v6)
        = G (m ((c : Thread nD τ).loc main_arg0)) (m ((c : Thread nD τ).loc main_arg2))
            (Cert.ReferenceIdeal.Read.val_main_v5 (F := Ideal) (m ((c : Thread nD τ).loc main_arg1))
              (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      rw [final m c, V_main_arg0, V_main_arg2, Cert.StyleMod.Host.V_style]), (h c).2⟩)
    (Cert.KernelIdeal.Value.run_blocks m ρ)

end Cert.StyleMod.Kern

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the kernel's arguments. -/
theorem algebraic : Cert.algebraic_KernelIdeal_ReferenceIdeal := by
  intro m ρ m' ρ' _ hagree
  refine ⟨_, Cert.StyleMod.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.StyleMod.Ref.result_eq,
    (hagree c).1, (hagree c).2.1, (hagree c).2.2.1, (hagree c).2.2.2.1, (hagree c).2.2.2.2]

end Cert.Proof.Claims

end
-- ==== Proof.lean ====
/-
  Per-sample weight modulation with demodulation, fused with the batched product, against its plain formula:

    s = style · mod_wᵀ + mod_b                           (one style vector per sample, [8, 512])
    W b k o = weight(0, k, o) · (s(b, k) + 1)            (the base weight, rows scaled per sample)
    D b o   = rsqrt (Σ_k W b k o · W b k o + ε)          (one factor per sample and output column)
    out(b, n, o) = Σ_k x(b, n, k) · (W b k o · D b o)

  The kernel computes `s` on the host, then on each grid point (sample `b`, row tile `j`) rebuilds sample `b`'s
  demodulated weight from the base weight and the style column and multiplies a 1024-row tile of `x` by it; the reference
  forms the demodulated weights of all samples and contracts once. On the extended reals the two are the same sums,
  entry by entry: both add the same two literal words (`1` and `ε`), the narrowing of the product's operands is the
  identity, and no sum is regrouped, so no law beyond reading each operation at an index is needed and the finiteness of
  the inputs is never used.

  The modules: `Spec` (the function `G` above), `RefValue` (the reference's last value is `G`), `Body` (the kernel body's
  stored tile at an index), `KernValue` (from the tiles to the whole result array), `StyleColumn` (the staged style column is
  the reference's), `Claims` (the five conjuncts).
-/
import proofs.«137280_j249108103688_1_alg».proof.Defs
import proofs.«137280_j249108103688_1_alg».proof.Proof.Gen.Kernel
import proofs.«137280_j249108103688_1_alg».proof.Proof.Gen.Kernel.Skeleton
import proofs.«137280_j249108103688_1_alg».proof.Proof.Gen.Kernel.Launch
import proofs.«137280_j249108103688_1_alg».proof.Proof.Gen.Kernel.Points
import proofs.«137280_j249108103688_1_alg».proof.Proof.Gen.Kernel.Frame
import proofs.«137280_j249108103688_1_alg».proof.Proof.Gen.KernelIdeal
import proofs.«137280_j249108103688_1_alg».proof.Proof.Gen.KernelIdeal.Skeleton
import proofs.«137280_j249108103688_1_alg».proof.Proof.Gen.KernelIdeal.Launch
import proofs.«137280_j249108103688_1_alg».proof.Proof.Gen.KernelIdeal.Points
import proofs.«137280_j249108103688_1_alg».proof.Proof.Gen.KernelIdeal.Frame
import proofs.«137280_j249108103688_1_alg».proof.Proof.Gen.ReferenceIdeal
import proofs.«137280_j249108103688_1_alg».proof.Proof.Gen.Pre_finite_inputs
import proofs.«137280_j249108103688_1_alg».proof.Proof.Gen.KernelIdeal.Value
import proofs.«137280_j249108103688_1_alg».proof.Proof.Gen.ReferenceIdeal.Run
import proofs.«137280_j249108103688_1_alg».proof.Proof.Gen.ReferenceIdeal.Read
import proofs.«137280_j249108103688_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
